-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x56x56 : Shape := ⟨4, ![32, 512, 56, 56]⟩
abbrev S32x512 : Shape := ⟨2, ![32, 512]⟩
abbrev S32 : Shape := ⟨1, ![32]⟩
abbrev S512x32 : Shape := ⟨2, ![512, 32]⟩
abbrev S512 : Shape := ⟨1, ![512]⟩
abbrev S_ : Shape := ⟨0, ![]⟩

class Facts : Prop where
  bcast_S_S32x512x56x56 : S_.BroadcastsInDim S32x512x56x56 (![] : Fin 0 → Fin S32x512x56x56.rank)
  reducesTo_S32x512x56x56_S_d0_1_2_3 : S32x512x56x56.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S32x512x56x56 .f32) (main_arg1 : FVec F S32x512 .f32) (main_arg2 : FVec F S32 .f32) (main_arg3 : FVec F S512x32 .f32) (main_arg4 : FVec F S512 .f32) : IVec S_ 1 :=
  let main_v0 : FVec F S32x512x56x56 .f32 := Host.absf main_arg0
  let main_cst : FVec F S_ .f32 := constant S_ .f32 0x7F800000#32
  let main_v1 : FVec F S32x512x56x56 .f32 := broadcastInDim S32x512x56x56 ![] bcast_S_S32x512x56x56 main_cst
  let main_v2 : IVec S32x512x56x56 1 := cmpf .olt main_v0 main_v1
  let main_c : IVec S_ 1 := constantI S_ 1 1#1
  let main_v3 : IVec S_ 1 := (fun x v => Host.reduce IntOp.andi x v reducesTo_S32x512x56x56_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg3
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg4 main_v13 main_v16
-- ==== Kernel.lean ====
abbrev S32x512x56x56 : Shape := ⟨4, ![32, 512, 56, 56]⟩
abbrev S32x512 : Shape := ⟨2, ![32, 512]⟩
abbrev S32 : Shape := ⟨1, ![32]⟩
abbrev S512x32 : Shape := ⟨2, ![512, 32]⟩
abbrev S512 : Shape := ⟨1, ![512]⟩
abbrev S16384x3136 : Shape := ⟨2, ![16384, 3136]⟩
abbrev S_ : Shape := ⟨0, ![]⟩
abbrev S32x1 : Shape := ⟨2, ![32, 1]⟩
abbrev S512x1 : Shape := ⟨2, ![512, 1]⟩
abbrev S512x3136 : Shape := ⟨2, ![512, 3136]⟩

abbrev nBuf : Space → Nat
  | .hbm => 13
  | .vmem => 8
  | .smem => 0
  | _ => 0

abbrev bufTy : (tb : Table) → Fin (tcTables nBuf tb) → BufTy
  | .hbm, ⟨0, _⟩ => ⟨S32x512x56x56, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S16384x3136, .f32⟩
  | .hbm, ⟨6, _⟩ => ⟨S_, .f32⟩
  | .hbm, ⟨7, _⟩ => ⟨S32x512, .f32⟩
  | .hbm, ⟨8, _⟩ => ⟨S32x512, .f32⟩
  | .hbm, ⟨9, _⟩ => ⟨S32x1, .f32⟩
  | .hbm, ⟨10, _⟩ => ⟨S512x1, .f32⟩
  | .hbm, ⟨11, _⟩ => ⟨S16384x3136, .f32⟩
  | .hbm, ⟨12, _⟩ => ⟨S32x512x56x56, .f32⟩
  | .local _ .vmem, ⟨0, _⟩ => ⟨S512x3136, .f32⟩
  | .local _ .vmem, ⟨1, _⟩ => ⟨S512x3136, .f32⟩
  | .local _ .vmem, ⟨2, _⟩ => ⟨S32x512, .f32⟩
  | .local _ .vmem, ⟨3, _⟩ => ⟨S32x1, .f32⟩
  | .local _ .vmem, ⟨4, _⟩ => ⟨S512x32, .f32⟩
  | .local _ .vmem, ⟨5, _⟩ => ⟨S512x1, .f32⟩
  | .local _ .vmem, ⟨6, _⟩ => ⟨S512x3136, .f32⟩
  | .local _ .vmem, ⟨7, _⟩ => ⟨S512x3136, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3136 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x56x56_S16384x3136 : S32x512x56x56.ShapeCasts S16384x3136
  bcast_S_S32x512 : S_.BroadcastsInDim S32x512 (![] : Fin 0 → Fin S32x512.rank)
  shapeCasts_S32_S32x1 : S32.ShapeCasts S32x1
  shapeCasts_S512_S512x1 : S512.ShapeCasts S512x1
  inb_S512x3136_S512x3136_0_0 : ∀ a, (![0, 0] : Fin 2 → Nat) a + S512x3136.size a ≤ S512x3136.size a
  h_S512x3136 : 0 < S512x3136.numel
  shapeCasts_S512x3136_S512x3136 : S512x3136.ShapeCasts S512x3136
  reduces_S512x3136_S512 : S512x3136.Reduces [1] S512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S512x32_S512x32_0_0 : ∀ a, (![0, 0] : Fin 2 → Nat) a + S512x32.size a ≤ S512x32.size a
  h_S512x32 : 0 < S512x32.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x3136 : S512x1.Broadcasts S512x3136
  shapeCasts_S16384x3136_S32x512x56x56 : S16384x3136.ShapeCasts S32x512x56x56
  dot_S32x512_S512x1_S32x1_1_0_0_1_n_n_wf : DotDims.WF S32x512 S512x1 S32x1 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3136.size a ≤ S16384x3136.size a
  hwx0_0 : ∀ i : grid0.Coords, EltTy.bits .f32 = 32 ∨ (Rect.block (s := S16384x3136) S512x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S512x32.size a
  hwx0_3 : ∀ i : grid0.Coords, EltTy.bits .f32 = 32 ∨ (Rect.block (s := S512x32) S512x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .f32 = 32 ∨ (Rect.block (s := S512x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x3136.size a ≤ S16384x3136.size a
  hwx0_5 : ∀ i : grid0.Coords, EltTy.bits .f32 = 32 ∨ (Rect.block (s := S16384x3136) S512x3136.size (cc0_transform_5 i) (hinb0_5 i)).WholeWords (EltTy.packing .f32)

variable [Facts₀]

def dot_S32x512_S512x1_S32x1_1_0_0_1_n_n : DotDims S32x512 S512x1 S32x1 where
  lhsContracting := [1]
  rhsContracting := [0]
  lhsNonContracting := [0]
  rhsNonContracting := [1]
  lhsBatch := []
  rhsBatch := []
  wf := dot_S32x512_S512x1_S32x1_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_v0) S512x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x3136.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x512x56x56 : Shape := ⟨4, ![32, 512, 56, 56]⟩
abbrev S32x512 : Shape := ⟨2, ![32, 512]⟩
abbrev S32 : Shape := ⟨1, ![32]⟩
abbrev S512x32 : Shape := ⟨2, ![512, 32]⟩
abbrev S512 : Shape := ⟨1, ![512]⟩
abbrev S32x512x3136 : Shape := ⟨3, ![32, 512, 3136]⟩
abbrev S1x32 : Shape := ⟨2, ![1, 32]⟩
abbrev S1x512 : Shape := ⟨2, ![1, 512]⟩
abbrev S1x512x3136 : Shape := ⟨3, ![1, 512, 3136]⟩
abbrev S1x512x1 : Shape := ⟨3, ![1, 512, 1]⟩

abbrev nBuf : Space → Nat
  | .hbm => 12
  | .vmem => 8
  | .smem => 0
  | _ => 0

abbrev bufTy : (tb : Table) → Fin (tcTables nBuf tb) → BufTy
  | .hbm, ⟨0, _⟩ => ⟨S32x512x56x56, .f32⟩
  | .hbm, ⟨1, _⟩ => ⟨S32x512, .f32⟩
  | .hbm, ⟨2, _⟩ => ⟨S32, .f32⟩
  | .hbm, ⟨3, _⟩ => ⟨S512x32, .f32⟩
  | .hbm, ⟨4, _⟩ => ⟨S512, .f32⟩
  | .hbm, ⟨5, _⟩ => ⟨S32x512x3136, .f32⟩
  | .hbm, ⟨6, _⟩ => ⟨S512x32, .f32⟩
  | .hbm, ⟨7, _⟩ => ⟨S32x512, .f32⟩
  | .hbm, ⟨8, _⟩ => ⟨S1x32, .f32⟩
  | .hbm, ⟨9, _⟩ => ⟨S1x512, .f32⟩
  | .hbm, ⟨10, _⟩ => ⟨S32x512x3136, .f32⟩
  | .hbm, ⟨11, _⟩ => ⟨S32x512x56x56, .f32⟩
  | .local _ .vmem, ⟨0, _⟩ => ⟨S1x512x3136, .f32⟩
  | .local _ .vmem, ⟨1, _⟩ => ⟨S1x512x3136, .f32⟩
  | .local _ .vmem, ⟨2, _⟩ => ⟨S512x32, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S1x512x3136, .f32⟩
  | .local _ .vmem, ⟨7, _⟩ => ⟨S1x512x3136, .f32⟩
  | _, _ => ⟨S32x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x3136 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x512x56x56_S32x512x3136 : S32x512x56x56.ShapeCasts S32x512x3136
  transposes_S32x512_S512x32_1_0 : S32x512.Transposes [1, 0] S512x32
  transposes_S512x32_S32x512_1_0 : S512x32.Transposes [1, 0] S32x512
  shapeCasts_S32_S1x32 : S32.ShapeCasts S1x32
  shapeCasts_S512_S1x512 : S512.ShapeCasts S1x512
  inb_S1x512x3136_S1x512x3136_0_0_0 : ∀ a, (![0, 0, 0] : Fin 3 → Nat) a + S1x512x3136.size a ≤ S1x512x3136.size a
  h_S1x512x3136 : 0 < S1x512x3136.numel
  shapeCasts_S1x512x3136_S1x512x3136 : S1x512x3136.ShapeCasts S1x512x3136
  reduces_S1x512x3136_S1x512 : S1x512x3136.Reduces [2] S1x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x512x1 : S1x512.ShapeCasts S1x512x1
  broadcasts_S1x512x1_S1x512x3136 : S1x512x1.Broadcasts S1x512x3136
  shapeCasts_S32x512x3136_S32x512x56x56 : S32x512x3136.ShapeCasts S32x512x56x56
  dot_S1x512_S512x32_S1x32_1_0_0_1_n_n_wf : DotDims.WF S1x512 S512x32 S1x32 [1] [0] [0] [1] [] []
  dot_S1x32_S32x512_S1x512_1_0_0_1_n_n_wf : DotDims.WF S1x32 S32x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3136.size a ≤ S32x512x3136.size a
  hwx0_0 : ∀ i : grid0.Coords, EltTy.bits .f32 = 32 ∨ (Rect.block (s := S32x512x3136) S1x512x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x3136.size a ≤ S32x512x3136.size a
  hwx0_5 : ∀ i : grid0.Coords, EltTy.bits .f32 = 32 ∨ (Rect.block (s := S32x512x3136) S1x512x3136.size (cc0_transform_5 i) (hinb0_5 i)).WholeWords (EltTy.packing .f32)

variable [Facts₀]

def dot_S1x512_S512x32_S1x32_1_0_0_1_n_n : DotDims S1x512 S512x32 S1x32 where
  lhsContracting := [1]
  rhsContracting := [0]
  lhsNonContracting := [0]
  rhsNonContracting := [1]
  lhsBatch := []
  rhsBatch := []
  wf := dot_S1x512_S512x32_S1x32_1_0_0_1_n_n_wf
def dot_S1x32_S32x512_S1x512_1_0_0_1_n_n : DotDims S1x32 S32x512 S1x512 where
  lhsContracting := [1]
  rhsContracting := [0]
  lhsNonContracting := [0]
  rhsNonContracting := [1]
  lhsBatch := []
  rhsBatch := []
  wf := dot_S1x32_S32x512_S1x512_1_0_0_1_n_n_wf

abbrev win0_0 : Pipeline.Window sig grid0 :=
  Pipeline.Window.ofSpec (Memref.whole main_v0) S1x512x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512x3136.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.SeSpec.lean ====
/-
  Squeeze-and-excitation over 32 images of 512 channels and 56 · 56 = 3136 pixels, on the extended reals.

  For image n the channel sums are S n c = Σ_p x n c p. The hidden layer is
  h n r = max (Σ_c (w1 r c · κ) · S n c + b1 r) θ, where κ is the pooling factor (one f32 word, the same in
  both programs, standing for 1/3136) and θ the rectifier's threshold (the f32 zero word). The gate is
  g n c = logistic (Σ_r w2 c r · h n r + b2 c), and the result is x n c p · g n c.

  The second program scales the channel sum instead of the weight, (S n c · κ) · w1 r c, and writes the second
  product as h n r · w2 c r. Multiplication of extended reals is commutative and associative at every argument,
  the infinities included, so both spellings are one function: no finiteness of the inputs is used, and the two
  constants are never evaluated.
-/
import Idealize.ShloMosaic.PureOps.Ideal
import Idealize.ShloMosaic.Lib.ValueIdx

noncomputable section

namespace Cert.SeSpec

open Idealize.ShloMosaic Idealize.ShloMosaic.ValueIdx
open scoped BigOperators

/-- The pooling factor κ: the f32 word both programs print for 1/3136. -/
abbrev kap : EReal := Ideal.ofBits .f32 0x39A72F05#32
/-- The rectifier's threshold θ: the f32 zero word. -/
abbrev thr : EReal := Ideal.ofBits .f32 0x00000000#32

section Gate

variable (x : Fin 32 → Fin 512 → Fin 3136 → EReal) (w1 : Fin 32 → Fin 512 → EReal) (b1 : Fin 32 → EReal)
  (w2 : Fin 512 → Fin 32 → EReal) (b2 : Fin 512 → EReal)

/-- The sum of channel c of image n over its pixels. -/
def pool (n : Fin 32) (c : Fin 512) : EReal := ∑ p : Fin 3136, x n c p

/-- The hidden layer, the weight scaled by κ. -/
def hidden (n : Fin 32) (r : Fin 32) : EReal := max ((∑ c : Fin 512, (w1 r c * kap) * pool x n c) + b1 r) thr

/-- The gate of channel c of image n. -/
def gate (n : Fin 32) (c : Fin 512) : EReal := Ideal.logistic ((∑ r : Fin 32, w2 c r * hidden x w1 b1 n r) + b2 c)

/-- The hidden layer, the channel sum scaled by κ and the weight as the right factor. -/
def hiddenSwapped (n : Fin 32) (r : Fin 32) : EReal := max ((∑ c : Fin 512, (pool x n c * kap) * w1 r c) + b1 r) thr

/-- The gate with the hidden value as the left factor. -/
def gateSwapped (n : Fin 32) (c : Fin 512) : EReal :=
  Ideal.logistic ((∑ r : Fin 32, hiddenSwapped x w1 b1 n r * w2 c r) + b2 c)

/-- (S · κ) · w = (w · κ) · S on the extended reals: commutativity twice, associativity once. -/
theorem scale_swap (s k w : EReal) : (s * k) * w = (w * k) * s := by
  rw [mul_comm (s * k) w, mul_comm s k, ← mul_assoc]

theorem hiddenSwapped_eq : hiddenSwapped x w1 b1 = hidden x w1 b1 := by
  funext n r
  unfold hiddenSwapped hidden
  rw [Finset.sum_congr rfl fun c _ => scale_swap (pool x n c) kap (w1 r c)]

theorem gateSwapped_eq : gateSwapped x w1 b1 w2 b2 = gate x w1 b1 w2 b2 := by
  funext n c
  unfold gateSwapped gate
  rw [hiddenSwapped_eq, Finset.sum_congr rfl fun r _ => mul_comm (hidden x w1 b1 n r) (w2 c r)]

end Gate

/-! ## The arrays -/

abbrev SX : Shape := ⟨4, ![32, 512, 56, 56]⟩
abbrev SW1 : Shape := ⟨2, ![32, 512]⟩
abbrev SB1 : Shape := ⟨1, ![32]⟩
abbrev SW2 : Shape := ⟨2, ![512, 32]⟩
abbrev SB2 : Shape := ⟨1, ![512]⟩

/-- Pixel p of channel c of image n, the two spatial axes read as one in row-major order. -/
def xflat (X : SX.Idx → EReal) (n : Fin 32) (c : Fin 512) (p : Fin 3136) : EReal :=
  X (ix4 n c ⟨p.val / 56, by have := p.isLt; omega⟩ ⟨p.val % 56, by omega⟩)

/-- The gate of the argument arrays. -/
def gateOf (X : SX.Idx → EReal) (W1 : SW1.Idx → EReal) (B1 : SB1.Idx → EReal) (W2 : SW2.Idx → EReal) (B2 : SB2.Idx → EReal)
    (n : Fin 32) (c : Fin 512) : EReal :=
  gate (xflat X) (fun r c' => W1 (ix2 r c')) (fun r => B1 (ix1 r)) (fun c' r => W2 (ix2 c' r)) (fun c' => B2 (ix1 c')) n c

/-- The result array: every entry of the input times the gate of its image and channel. -/
def result (X : SX.Idx → EReal) (W1 : SW1.Idx → EReal) (B1 : SB1.Idx → EReal) (W2 : SW2.Idx → EReal) (B2 : SB2.Idx → EReal) :
    SX.Idx → EReal :=
  fun i => X i * gateOf X W1 B1 W2 B2 (i 0) (i 1)

/-- The flat pixel 56 · h + w of an image is its entry (h, w). -/
theorem xflat_rowMajor (X : SX.Idx → EReal) (n : Fin 32) (c : Fin 512) (h w : Fin 56) (p : Fin 3136)
    (hp : p.val = 56 * h.val + w.val) : xflat X n c p = X (ix4 n c h w) := by
  unfold xflat
  congr 1
  have hh := h.isLt
  have hw := w.isLt
  have e2 : (⟨p.val / 56, by have := p.isLt; omega⟩ : Fin 56) = h := Fin.ext (by simp only; omega)
  have e3 : (⟨p.val % 56, by omega⟩ : Fin 56) = w := Fin.ext (by simp only; omega)
  rw [e2, e3]

end Cert.SeSpec

end
-- ==== Proof.LibPlainDot.lean ====
/-
  A matrix product with one contracted axis, read at an entry.

  For a product of an M × K by a K × N matrix into a zero accumulator, on the extended reals, entry (a, b) is
  Σ_c A (a, c) · B (c, b). The dimension numbers enter only through four facts about where the operands are read:
  the left operand at (row of the result, contraction position) and the right at (contraction position, column
  of the result). A literal record of dimension numbers proves each of the four by computation.
-/
import Idealize.ShloMosaic.PureOps.Ideal.Laws
import Idealize.ShloMosaic.Lib.ValueIdx

noncomputable section

namespace Cert.LibPlainDot

open Idealize.ShloMosaic Idealize.ShloMosaic.ValueIdx
open scoped BigOperators

/-- Entry (a, b) of an M × K by K × N product into the zero accumulator is the sum over the contracted
    coordinate of the products of the entries. -/
theorem matmul_zero_apply {M K N : Nat} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (j : (⟨2, ![M, N]⟩ : Shape).Idx) (k : d.contr.Idx), (d.lhsIdx j k (0 : Fin 2)).val = (j (0 : Fin 2)).val)
    (hl1 : ∀ (j : (⟨2, ![M, N]⟩ : Shape).Idx) (k : d.contr.Idx), (d.lhsIdx j k (1 : Fin 2)).val = (k ⟨0, by omega⟩).val)
    (hr0 : ∀ (j : (⟨2, ![M, N]⟩ : Shape).Idx) (k : d.contr.Idx), (d.rhsIdx j k (0 : Fin 2)).val = (k ⟨0, by omega⟩).val)
    (hr1 : ∀ (j : (⟨2, ![M, N]⟩ : Shape).Idx) (k : d.contr.Idx), (d.rhsIdx j k (1 : Fin 2)).val = (j (1 : Fin 2)).val)
    (A : FVec Ideal ⟨2, ![M, K]⟩ φ₁) (B : FVec Ideal ⟨2, ![K, N]⟩ φ₂) (a : Fin M) (b : Fin N) :
    FloatOps.matmul d prec A B (constant ⟨2, ![M, N]⟩ .f32 0x00000000#32) (ix2 a b)
      = ∑ c : Fin K, A (ix2 a c) * B (ix2 c b) := by
  rw [Ideal.matmul_constant_zero_apply, ← Equiv.sum_comp (contrEquiv1 d K hr hs).symm]
  refine Finset.sum_congr rfl fun c _ => ?_
  have c2 := contrEquiv1_symm_val d K hr hs c
  have l2 : d.lhsIdx (ix2 a b) ((contrEquiv1 d K hr hs).symm c) = ix2 a c := by
    funext ax
    apply Fin.ext
    match ax with
    | ⟨0, _⟩ => exact hl0 _ _
    | ⟨1, _⟩ => exact (hl1 _ _).trans c2
  have r2 : d.rhsIdx (ix2 a b) ((contrEquiv1 d K hr hs).symm c) = ix2 c b := by
    funext ax
    apply Fin.ext
    match ax with
    | ⟨0, _⟩ => exact (hr0 _ _).trans c2
    | ⟨1, _⟩ => exact hr1 _ _
  rw [l2, r2]

end Cert.LibPlainDot

end
-- ==== Proof.KernelPayload.lean ====
/-
  The idealized kernel's body at one image: what its one store writes, entry by entry, as a function of the five
  blocks it loads. Rows are channels and lanes are pixels. Each operation that is not lane by lane is read at an
  index on its own (a row sum, the column view of a vector, the two products with a column, the column spread
  over the lanes); the payload at (c, p) is then the block's entry times the logistic of the second product.
-/
import proofs.«108815_g2000302494452861_pallasbulk_240_2_alg».proof.Proof.Gen.KernelIdeal.Skeleton
import proofs.«108815_g2000302494452861_pallasbulk_240_2_alg».proof.Proof.SeSpec
import proofs.«108815_g2000302494452861_pallasbulk_240_2_alg».proof.Proof.LibPlainDot
import Idealize.ShloMosaic.PureOps.Ideal.Laws
import Idealize.ShloMosaic.Lib.Pipeline.Value
import Idealize.ShloMosaic.Lib.ValueIdx

noncomputable section

namespace Cert.KernelIdeal.Hand

open Idealize.ShloMosaic Idealize.ShloMosaic.ValueIdx Cert.KernelIdeal Cert.KernelIdeal.Gen
open scoped BigOperators

/-- The sum of a [512, 3136] block over its lanes, at row c. -/
theorem rowSum_apply (v : FVec Ideal S512x3136 .f32) (h : S512x3136.Reduces [1] S512) (c : Fin 512) :
    multiReduction .add [1] S512 v 0x00000000#32 h (.inl rfl) rfl (ix1 c) = ∑ q : Fin 3136, v (ix2 c q) := by
  refine (Ideal.multiReduction_add_single v 0x00000000#32 h (.inl rfl) rfl (ix1 c)).trans ?_
  refine Finset.sum_congr rfl fun q _ => congrArg v ?_
  funext a
  apply Fin.ext
  match a with
  | ⟨0, _⟩ => rfl
  | ⟨1, _⟩ => rfl

/-- A vector of 512 entries viewed as a column: entry (c, 0) is entry c. -/
theorem column_apply (u : FVec Ideal S512 .f32) (h : S512.ShapeCasts S512x1) (c : Fin 512) (z : Fin 1) :
    shapeCast S512x1 u h (ix2 c z) = u (ix1 c) := by
  refine shapeCast_apply u h (ix2 c z) (ix1 c) ?_
  rw [Shape.rowMajor_val_one, Shape.rowMajor_val_two]
  have := z.isLt
  show c.val = c.val * 1 + z.val
  omega

/-- A column of 512 entries spread over 3136 lanes: entry (c, p) is the column's entry c. -/
theorem spread_apply (g : FVec Ideal S512x1 .f32) (h : S512x1.Broadcasts S512x3136) (c : Fin 512) (p : Fin 3136) :
    broadcastTo S512x3136 g h (ix2 c p) = g (ix2 c 0) := by
  refine broadcastTo_apply g h (ix2 c p) (ix2 c 0) fun a => ?_
  match a with
  | ⟨0, _⟩ => rfl
  | ⟨1, _⟩ => rfl

/-- The scaled weights [32, 512] times the column of channel sums [512, 1]: entry (r, 0). -/
theorem hiddenProduct_apply (A : FVec Ideal S32x512 .f32) (B : FVec Ideal S512x1 .f32) (r : Fin 32) (z : Fin 1) :
    matmul dot_S32x512_S512x1_S32x1_1_0_0_1_n_n none A B (constant S32x1 .f32 0x00000000#32) (ix2 r z)
      = ∑ c : Fin 512, A (ix2 r c) * B (ix2 c z) :=
  LibPlainDot.matmul_zero_apply dot_S32x512_S512x1_S32x1_1_0_0_1_n_n none rfl rfl
    (fun j k => by simp [DotDims.lhsIdx, dot_S32x512_S512x1_S32x1_1_0_0_1_n_n]; rfl)
    (fun j k => DotDims.lhsIdx_val_of_single (d := dot_S32x512_S512x1_S32x1_1_0_0_1_n_n) (cl := 1) rfl j k)
    (fun j k => DotDims.rhsIdx_val_of_single (d := dot_S32x512_S512x1_S32x1_1_0_0_1_n_n) (cr := 0) rfl j k)
    (fun j k => (Nat.lt_one_iff.mp (dot_S32x512_S512x1_S32x1_1_0_0_1_n_n.rhsIdx j k (1 : Fin 2)).isLt).trans (Nat.lt_one_iff.mp (j (1 : Fin 2)).isLt).symm)
    A B r z

/-- The second weights [512, 32] times the hidden column [32, 1]: entry (c, 0). -/
theorem gateProduct_apply (A : FVec Ideal S512x32 .f32) (B : FVec Ideal S32x1 .f32) (c : Fin 512) (z : Fin 1) :
    matmul dot_S512x32_S32x1_S512x1_1_0_0_1_n_n none A B (constant S512x1 .f32 0x00000000#32) (ix2 c z)
      = ∑ r : Fin 32, A (ix2 c r) * B (ix2 r z) :=
  LibPlainDot.matmul_zero_apply dot_S512x32_S32x1_S512x1_1_0_0_1_n_n none rfl rfl
    (fun j k => by simp [DotDims.lhsIdx, dot_S512x32_S32x1_S512x1_1_0_0_1_n_n]; rfl)
    (fun j k => DotDims.lhsIdx_val_of_single (d := dot_S512x32_S32x1_S512x1_1_0_0_1_n_n) (cl := 1) rfl j k)
    (fun j k => DotDims.rhsIdx_val_of_single (d := dot_S512x32_S32x1_S512x1_1_0_0_1_n_n) (cr := 0) rfl j k)
    (fun j k => (Nat.lt_one_iff.mp (dot_S512x32_S32x1_S512x1_1_0_0_1_n_n.rhsIdx j k (1 : Fin 2)).isLt).trans (Nat.lt_one_iff.mp (j (1 : Fin 2)).isLt).symm)
    A B c z

/-- What the body stores at (c, p): the block's entry times the logistic of row c of the second product plus its
    bias, the hidden column being the rectified first product of the scaled weights with the row sums. -/
theorem pay_apply (x0 : Vec Ideal S512x3136 .f32) (x1 : Vec Ideal S32x512 .f32) (x2 : Vec Ideal S32x1 .f32)
    (x3 : Vec Ideal S512x32 .f32) (x4 : Vec Ideal S512x1 .f32) (c : Fin 512) (p : Fin 3136) :
    k0_pay1 (F := Ideal) x0 x1 x2 x3 x4 (ix2 c p)
      = x0 (ix2 c p) * Ideal.logistic ((∑ r : Fin 32, x3 (ix2 c r) *
          max ((∑ c' : Fin 512, x1 (ix2 r c') * ∑ q : Fin 3136, x0 (ix2 c' q)) + x2 (ix2 r 0)) SeSpec.thr)
          + x4 (ix2 c 0)) := by
  unfold k0_pay1
  simp only [shapeCast_self]
  rw [mulf_apply, spread_apply]
  show x0 (ix2 c p) * Ideal.logistic (matmul (F := Ideal) dot_S512x32_S32x1_S512x1_1_0_0_1_n_n none x3 _ _ (ix2 c 0) + x4 (ix2 c 0)) = _
  rw [gateProduct_apply]
  refine congrArg (fun s => x0 (ix2 c p) * Ideal.logistic (s + x4 (ix2 c 0))) (Finset.sum_congr rfl fun r _ => ?_)
  refine congrArg (fun s => x3 (ix2 c r) * s) ?_
  show max (matmul (F := Ideal) dot_S32x512_S512x1_S32x1_1_0_0_1_n_n none x1 _ _ (ix2 r 0) + x2 (ix2 r 0)) SeSpec.thr = _
  rw [hiddenProduct_apply]
  refine congrArg (fun s => max (s + x2 (ix2 r 0)) SeSpec.thr) (Finset.sum_congr rfl fun c' _ => ?_)
  refine congrArg (fun s => x1 (ix2 r c') * s) ?_
  rw [column_apply, rowSum_apply]

/-- The same for blocks known entry by entry: the image's pixels `xf`, the weights already scaled by κ, the two
    biases as columns. The store at (c, p) is `xf c p` times the gate of channel c over those. -/
theorem pay_of_entries (x0 : Vec Ideal S512x3136 .f32) (x1 : Vec Ideal S32x512 .f32) (x2 : Vec Ideal S32x1 .f32)
    (x3 : Vec Ideal S512x32 .f32) (x4 : Vec Ideal S512x1 .f32)
    (xf : Fin 512 → Fin 3136 → EReal) (w1 : Fin 32 → Fin 512 → EReal) (b1 : Fin 32 → EReal)
    (w2 : Fin 512 → Fin 32 → EReal) (b2 : Fin 512 → EReal)
    (h0 : ∀ c p, x0 (ix2 c p) = xf c p) (h1 : ∀ r c, x1 (ix2 r c) = w1 r c * SeSpec.kap)
    (h2 : ∀ r, x2 (ix2 r 0) = b1 r) (h3 : ∀ c r, x3 (ix2 c r) = w2 c r) (h4 : ∀ c, x4 (ix2 c 0) = b2 c)
    (c : Fin 512) (p : Fin 3136) :
    k0_pay1 (F := Ideal) x0 x1 x2 x3 x4 (ix2 c p)
      = xf c p * Ideal.logistic ((∑ r : Fin 32, w2 c r *
          max ((∑ c' : Fin 512, (w1 r c' * SeSpec.kap) * ∑ q : Fin 3136, xf c' q) + b1 r) SeSpec.thr) + b2 c) := by
  rw [pay_apply]
  simp only [h0, h1, h2, h3, h4]

end Cert.KernelIdeal.Hand

end
-- ==== Proof.KernelValue.lean ====
/-
  The idealized kernel around its one region. The host reshapes the input to [16384, 3136] (row 512 n + c is
  channel c of image n, lane p is pixel p), scales the first weights by κ, and views the two biases as columns.
  Grid point n takes rows 512 n … 512 n + 511 of the input and the four small arrays whole, and writes the same
  rows of the output. Hence every entry of the output array is the input's entry times the gate of its image and
  channel; the host's reshape back to [32, 512, 56, 56] then gives the result of the specification.
-/
import proofs.«108815_g2000302494452861_pallasbulk_240_2_alg».proof.Proof.Gen.KernelIdeal.Frame
import proofs.«108815_g2000302494452861_pallasbulk_240_2_alg».proof.Proof.KernelPayload
import Idealize.ShloMosaic.Lib.Pipeline.Value
import Idealize.ShloMosaic.Lib.StableHlo.Run
import Idealize.ShloMosaic.Lib.Tactic

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (m : (ℓ : Loc nD τ sig) → Buf (Elt Ideal) ℓ) (ρ : Dev nD → PrngReg)

/-! ## The argument arrays, and the arrays the region finds -/

abbrev argX (c : Dev nD) : SeSpec.SX.Idx → EReal := m ((c : Thread nD τ).loc main_arg0)
abbrev argW1 (c : Dev nD) : SeSpec.SW1.Idx → EReal := m ((c : Thread nD τ).loc main_arg1)
abbrev argB1 (c : Dev nD) : SeSpec.SB1.Idx → EReal := m ((c : Thread nD τ).loc main_arg2)
abbrev argW2 (c : Dev nD) : SeSpec.SW2.Idx → EReal := m ((c : Thread nD τ).loc main_arg3)
abbrev argB2 (c : Dev nD) : SeSpec.SB2.Idx → EReal := m ((c : Thread nD τ).loc main_arg4)

/-- The region's first operand is the input reshaped to [16384, 3136]. -/
theorem found_x (c : Dev nD) : (V m c main_v0 : S16384x3136.Idx → EReal)
    = shapeCast S16384x3136 (argX m c) shapeCasts_S32x512x56x56_S16384x3136 := by
  show StableHlo.after hostOps0 (fun b => m (c, b)) (Proc.devRef .tc main_v0) = _
  after_results
  try rfl

/-- Its second operand is the first weights times the splat of κ. -/
theorem found_w1 (c : Dev nD) : (V m c main_v2 : S32x512.Idx → EReal)
    = mulf (argW1 m c) (broadcastInDim S32x512 ![] bcast_S_S32x512 (constant (F := Ideal) S_ .f32 0x39A72F05#32)) := by
  show StableHlo.after hostOps0 (fun b => m (c, b)) (Proc.devRef .tc main_v2) = _
  after_results
  try rfl

/-- Its third operand is the first bias as a column. -/
theorem found_b1 (c : Dev nD) : (V m c main_v3 : S32x1.Idx → EReal)
    = shapeCast S32x1 (argB1 m c) shapeCasts_S32_S32x1 := by
  show StableHlo.after hostOps0 (fun b => m (c, b)) (Proc.devRef .tc main_v3) = _
  after_results
  try rfl

/-- Its fifth operand is the second bias as a column. -/
theorem found_b2 (c : Dev nD) : (V m c main_v4 : S512x1.Idx → EReal)
    = shapeCast S512x1 (argB2 m c) shapeCasts_S512_S512x1 := by
  show StableHlo.after hostOps0 (fun b => m (c, b)) (Proc.devRef .tc main_v4) = _
  after_results
  try rfl

/-! ## The blocks of a grid point -/

theorem hz : (![0, 0] : Fin 2 → Nat) = fun _ => 0 := funext fun a => by fin_cases a <;> rfl

/-- The printed index maps over the 32 grid points: the input and the output move one block of 512 rows per point,
    the four small arrays stay where they are. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The image grid point t works on. -/
def img (t : Fin cfg0.N) : Fin 32 := t.cast N_0

theorem img_val (t : Fin cfg0.N) : (img t).val = t.val := rfl

/-- Entry (c, p) of the input block at point t is pixel p of channel c of image t. -/
theorem blk_x (c : Dev nD) (t : Fin cfg0.N) (cc : Fin 512) (p : Fin 3136) :
    (iblk m c 0 t : Vec Ideal S512x3136 .f32) (ix2 cc p) = SeSpec.xflat (argX m c) (img t) cc p := by
  obtain ⟨h0, h1, -⟩ := idx_facts t
  unfold iblk
  rw [View.read_apply]
  show V m c main_v0 (((cfg0.win 0).blk t).view.emb (ix2 cc p)) = _
  refine (congrFun (found_x m c) _).trans ?_
  unfold SeSpec.xflat
  refine shapeCast_apply _ _ _ _ ?_
  rw [Shape.rowMajor_val_four, Shape.rowMajor_val_two]
  show (((img t).val * 512 + cc.val) * 56 + p.val / 56) * 56 + p.val % 56
    = (win0_0.index t (0 : Fin 2) * 512 + 1 * cc.val) * 3136 + (win0_0.index t (1 : Fin 2) * 3136 + 1 * p.val)
  rw [h0, h1, img_val]
  omega

/-- Entry (r, c) of the scaled weights is the weight times κ, at every point. -/
theorem blk_w1 (c : Dev nD) (t : Fin cfg0.N) (r : Fin 32) (cc : Fin 512) :
    (iblk m c 1 t : Vec Ideal S32x512 .f32) (ix2 r cc) = argW1 m c (ix2 r cc) * SeSpec.kap := by
  obtain ⟨-, -, h0, h1, -⟩ := idx_facts t
  unfold iblk
  rw [View.read_apply]
  show V m c main_v2 (((cfg0.win 1).blk t).view.emb (ix2 r cc)) = _
  refine (congrFun (found_w1 m c) _).trans ?_
  have e : ((cfg0.win 1).blk t).view.emb (ix2 r cc) = ix2 r cc := by
    funext a
    apply Fin.ext
    match a with
    | ⟨0, _⟩ => show win0_1.index t (0 : Fin 2) * 32 + 1 * r.val = r.val; rw [h0]; omega
    | ⟨1, _⟩ => show win0_1.index t (1 : Fin 2) * 512 + 1 * cc.val = cc.val; rw [h1]; omega
  rw [e]
  rfl

/-- Entry (r, 0) of the first bias column is the bias's entry r. -/
theorem blk_b1 (c : Dev nD) (t : Fin cfg0.N) (r : Fin 32) :
    (iblk m c 2 t : Vec Ideal S32x1 .f32) (ix2 r 0) = argB1 m c (ix1 r) := by
  obtain ⟨-, -, -, -, h0, h1, -⟩ := idx_facts t
  unfold iblk
  rw [View.read_apply]
  show V m c main_v3 (((cfg0.win 2).blk t).view.emb (ix2 r 0)) = _
  refine (congrFun (found_b1 m c) _).trans ?_
  refine shapeCast_apply _ _ _ _ ?_
  rw [Shape.rowMajor_val_one, Shape.rowMajor_val_two]
  show r.val = (win0_2.index t (0 : Fin 2) * 32 + 1 * r.val) * 1 + (win0_2.index t (1 : Fin 2) * 1 + 1 * 0)
  rw [h0, h1]
  omega

/-- Entry (c, r) of the second weights' block is the weight, at every point. -/
theorem blk_w2 (c : Dev nD) (t : Fin cfg0.N) (cc : Fin 512) (r : Fin 32) :
    (iblk m c 3 t : Vec Ideal S512x32 .f32) (ix2 cc r) = argW2 m c (ix2 cc r) := by
  obtain ⟨-, -, -, -, -, -, h0, h1, -⟩ := idx_facts t
  unfold iblk
  rw [View.read_apply]
  show V m c main_arg3 (((cfg0.win 3).blk t).view.emb (ix2 cc r)) = _
  refine (congrFun (V_main_arg3 m c) _).trans ?_
  have e : ((cfg0.win 3).blk t).view.emb (ix2 cc r) = ix2 cc r := by
    funext a
    apply Fin.ext
    match a with
    | ⟨0, _⟩ => show win0_3.index t (0 : Fin 2) * 512 + 1 * cc.val = cc.val; rw [h0]; omega
    | ⟨1, _⟩ => show win0_3.index t (1 : Fin 2) * 32 + 1 * r.val = r.val; rw [h1]; omega
  rw [e]

/-- Entry (c, 0) of the second bias column is the bias's entry c. -/
theorem blk_b2 (c : Dev nD) (t : Fin cfg0.N) (cc : Fin 512) :
    (iblk m c 4 t : Vec Ideal S512x1 .f32) (ix2 cc 0) = argB2 m c (ix1 cc) := by
  obtain ⟨-, -, -, -, -, -, -, -, h0, h1, -⟩ := idx_facts t
  unfold iblk
  rw [View.read_apply]
  show V m c main_v4 (((cfg0.win 4).blk t).view.emb (ix2 cc 0)) = _
  refine (congrFun (found_b2 m c) _).trans ?_
  refine shapeCast_apply _ _ _ _ ?_
  rw [Shape.rowMajor_val_one, Shape.rowMajor_val_two]
  show cc.val = (win0_4.index t (0 : Fin 2) * 512 + 1 * cc.val) * 1 + (win0_4.index t (1 : Fin 2) * 1 + 1 * 0)
  rw [h0, h1]
  omega

/-! ## What a point writes back, and the output array -/

/-- The image of row i of the [16384, 3136] arrays, and its channel: i = 512 · image + channel. -/
def rowImg (i : Fin 16384) : Fin 32 := ⟨i.val / 512, by have := i.isLt; omega⟩
def rowCh (i : Fin 16384) : Fin 512 := ⟨i.val % 512, by omega⟩

theorem rowImg_of (i : Fin 16384) (n : Fin 32) (cc : Fin 512) (h : i.val = n.val * 512 + cc.val) : rowImg i = n :=
  Fin.ext (by have := cc.isLt; show i.val / 512 = n.val; omega)
theorem rowCh_of (i : Fin 16384) (n : Fin 32) (cc : Fin 512) (h : i.val = n.val * 512 + cc.val) : rowCh i = cc :=
  Fin.ext (by have := cc.isLt; show i.val % 512 = cc.val; omega)

/-- The output array: row 512 n + c, lane p holds pixel p of channel c of image n times that channel's gate. -/
def outRows (c : Dev nD) : S16384x3136.Idx → EReal := fun i =>
  SeSpec.xflat (argX m c) (rowImg (i 0)) (rowCh (i 0)) (i 1)
    * SeSpec.gateOf (argX m c) (argW1 m c) (argB1 m c) (argW2 m c) (argB2 m c) (rowImg (i 0)) (rowCh (i 0))

theorem outRows_at (c : Dev nD) (i : S16384x3136.Idx) (n : Fin 32) (cc : Fin 512) (p : Fin 3136)
    (h0 : (i 0).val = n.val * 512 + cc.val) (h1 : (i 1).val = p.val) :
    outRows m c i = SeSpec.xflat (argX m c) n cc p
      * SeSpec.gateOf (argX m c) (argW1 m c) (argB1 m c) (argW2 m c) (argB2 m c) n cc := by
  unfold outRows
  rw [rowImg_of (i 0) n cc h0, rowCh_of (i 0) n cc h0, show (i 1 : Fin 3136) = p from Fin.ext h1]

/-- WHAT POINT t WRITES BACK is its block of the output rows. -/
theorem flushed_eq (c : Dev nD) (t : Fin cfg0.N) :
    (dats m 0 c).flushed 5 t = ((cfg0.win 5).blk t).view.read (Elt Ideal) (outRows m c) := by
  show (cfg0.win 5).cut (grid0.coords t) ((dats m 0 c).after 5 t) = _
  rw [after0_5]
  unfold out0_5
  rw [View.canon_unit_zero hz]
  simp only [View.ld_unit_zero (S := S512x3136) hz, View.ld_unit_zero (S := S32x512) hz, View.ld_unit_zero (S := S32x1) hz,
    View.ld_unit_zero (S := S512x32) hz, View.ld_unit_zero (S := S512x1) hz]
  refine funext fun (y : S512x3136.Idx) => ?_
  obtain ⟨cc, p, rfl⟩ : ∃ (cc : Fin 512) (p : Fin 3136), y = ix2 cc p := ⟨y 0, y 1, eq_ix2 y⟩
  show k0_pay1 (F := Ideal) (iblk m c 0 t) (iblk m c 1 t) (iblk m c 2 t) (iblk m c 3 t) (iblk m c 4 t) (ix2 cc p)
      = outRows m c (((cfg0.win 5).blk t).view.emb (ix2 cc p))
  obtain ⟨-, -, -, -, -, -, -, -, -, -, h0, h1⟩ := idx_facts t
  rw [outRows_at m c _ (img t) cc p
    (by show win0_5.index t (0 : Fin 2) * 512 + 1 * cc.val = _; rw [h0, img_val]; omega)
    (by show win0_5.index t (1 : Fin 2) * 3136 + 1 * p.val = _; rw [h1]; omega)]
  refine (pay_of_entries _ _ _ _ _ (fun cc p => SeSpec.xflat (argX m c) (img t) cc p) (fun r c' => argW1 m c (ix2 r c'))
    (fun r => argB1 m c (ix1 r)) (fun cc r => argW2 m c (ix2 cc r)) (fun cc => argB2 m c (ix1 cc))
    (blk_x m c t) (blk_w1 m c t) (blk_b1 m c t) (blk_w2 m c t) (blk_b2 m c t) cc p).trans ?_
  unfold SeSpec.gateOf SeSpec.gate SeSpec.hidden SeSpec.pool
  rfl

/-- A row index lies in point t's block iff each coordinate is in the block's range on its axis. -/
theorem mem_blk (t : Fin cfg0.N) (i : S16384x3136.Idx) :
    i ∈ ((cfg0.win 5).blk t).view.set ↔ ∀ a : Fin 2, win0_5.index t a * S512x3136.size a ≤ (i a).val
      ∧ (i a).val < win0_5.index t a * S512x3136.size a + S512x3136.size a := by
  show i ∈ ((View.whole main_v5).slice (win0_5.rect t)).set ↔ _
  rw [View.set_slice_whole, Rect.mem_set_unit]
  exact Iff.rfl

/-- Every index of the output array is in some point's block: row i in the block of point i / 512. -/
theorem covered (i : S16384x3136.Idx) :
    ∃ t : Fin cfg0.N, (cfg0.win 5).flush t = true ∧ i ∈ ((cfg0.win 5).blk t).view.set := by
  have hi0 : (i 0).val < 16384 := (i 0).isLt
  have hi1 : (i 1).val < 3136 := (i 1).isLt
  obtain ⟨t, ht⟩ : ∃ t : Fin cfg0.N, t.val = (i 0).val / 512 :=
    ⟨Fin.cast N_0.symm ⟨(i 0).val / 512, by omega⟩, rfl⟩
  obtain ⟨-, -, -, -, -, -, -, -, -, -, h0, h1⟩ := idx_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    rw [h0, ht]; omega
  | ⟨1, _⟩ =>
    show win0_5.index t (1 : Fin 2) * 3136 ≤ (i 1).val ∧ (i 1).val < win0_5.index t (1 : Fin 2) * 3136 + 3136
    rw [h1]; omega

/-- So the output array ends holding the output rows. -/
theorem final_rows (c : Dev nD) : (dats m 0 c).arrAt 5 cfg0.N = outRows m c :=
  (dats m 0 c).arrAt_eq_of_cover 5 (outRows m c) (fun t _ => flushed_eq m c t) covered

/-! ## The host's reshape after the region, and the run -/

/-- The program's result: the output rows reshaped to [32, 512, 56, 56] are the specification's result. -/
theorem tail_eq (c : Dev nD) : Pipeline.afterTail₀ cfgs (dats m) 0 (V0 m) [hostOps1] c main_v6
    = SeSpec.result (argX m c) (argW1 m c) (argB1 m c) (argW2 m c) (argB2 m c) := by
  unfold Pipeline.afterTail₀
  show StableHlo.after hostOps1 _ (Proc.devRef .tc main_v6) = _
  after_results
  rw [Pipeline.withArrays_arr spec0 launch0.win.arr_inj c _ _ 5]
  rw [final_rows]
  funext i
  obtain ⟨n, cc, h, w, rfl⟩ : ∃ (n : Fin 32) (cc : Fin 512) (h w : Fin 56), i = ix4 n cc h w :=
    ⟨i 0, i 1, i 2, i 3, eq_ix4 i⟩
  have hn := n.isLt
  have hc := cc.isLt
  have hh := h.isLt
  have hw := w.isLt
  refine (shapeCast_apply (outRows m c) _ (ix4 n cc h w)
    (ix2 (⟨n.val * 512 + cc.val, by omega⟩ : Fin 16384) (⟨56 * h.val + w.val, by omega⟩ : Fin 3136)) ?_).trans ?_
  · rw [Shape.rowMajor_val_two, Shape.rowMajor_val_four]
    show (n.val * 512 + cc.val) * 3136 + (56 * h.val + w.val) = ((n.val * 512 + cc.val) * 56 + h.val) * 56 + w.val
    omega
  · rw [outRows_at m c _ n cc ⟨56 * h.val + w.val, by omega⟩ rfl rfl, SeSpec.xflat_rowMajor _ n cc h w _ rfl]
    rfl

/-- The run, read: the result at the specification's function of the arguments, the arguments unchanged. -/
theorem run : θ_run defs (onTc (τ := τ) (main (F := Ideal))) ⟨m, fun _ => 0, ρ⟩ fun r => ∀ c : Dev nD,
      r.2.mem ((c : Thread nD τ).loc main_v6) = SeSpec.result (argX m c) (argW1 m c) (argB1 m c) (argW2 m c) (argB2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Hand

end
-- ==== Proof.RefPayload.lean ====
/-
  The idealized reference's body at one image: what its one store writes, entry by entry, as a function of the
  five blocks it loads. The block is [1, 512, 3136]: one image, channels, pixels. The channel sums are scaled by κ
  inside the body, the hidden layer and the gate are products of a row vector with a matrix (the host hands the
  weights over transposed), and the gate row is spread over the pixels.
-/
import proofs.«108815_g2000302494452861_pallasbulk_240_2_alg».proof.Proof.Gen.ReferenceIdeal.Skeleton
import proofs.«108815_g2000302494452861_pallasbulk_240_2_alg».proof.Proof.SeSpec
import proofs.«108815_g2000302494452861_pallasbulk_240_2_alg».proof.Proof.LibPlainDot
import Idealize.ShloMosaic.PureOps.Ideal.Laws
import Idealize.ShloMosaic.Lib.Pipeline.Value
import Idealize.ShloMosaic.Lib.ValueIdx

noncomputable section

namespace Cert.ReferenceIdeal.Hand

open Idealize.ShloMosaic Idealize.ShloMosaic.ValueIdx Cert.ReferenceIdeal Cert.ReferenceIdeal.Gen
open scoped BigOperators

/-- The sum of a [1, 512, 3136] block over its last axis, at channel c. -/
theorem pixelSum_apply (v : FVec Ideal S1x512x3136 .f32) (h : S1x512x3136.Reduces [2] S1x512) (c : Fin 512) :
    multiReduction .add [2] S1x512 v 0x00000000#32 h (.inl rfl) rfl (ix2 0 c) = ∑ q : Fin 3136, v (ix3 0 c q) := by
  refine (Ideal.multiReduction_add_single v 0x00000000#32 h (.inl rfl) rfl (ix2 0 c)).trans ?_
  refine Finset.sum_congr rfl fun q _ => congrArg v ?_
  funext a
  apply Fin.ext
  match a with
  | ⟨0, _⟩ => rfl
  | ⟨1, _⟩ => rfl
  | ⟨2, _⟩ => rfl

/-- A [1, 512] row given a trailing unit axis: entry (0, c, 0) is entry (0, c). -/
theorem trailingUnit_apply (u : FVec Ideal S1x512 .f32) (h : S1x512.ShapeCasts S1x512x1) (c : Fin 512) :
    shapeCast S1x512x1 u h (ix3 0 c 0) = u (ix2 0 c) := by
  refine shapeCast_apply u h (ix3 0 c 0) (ix2 0 c) ?_
  rw [Shape.rowMajor_val_two, Shape.rowMajor_val_three]
  show 0 * 512 + c.val = (0 * 512 + c.val) * 1 + 0
  omega

/-- A [1, 512, 1] column spread over 3136 pixels: entry (0, c, p) is the column's entry (0, c, 0). -/
theorem spread_apply (g : FVec Ideal S1x512x1 .f32) (h : S1x512x1.Broadcasts S1x512x3136) (c : Fin 512) (p : Fin 3136) :
    broadcastTo S1x512x3136 g h (ix3 0 c p) = g (ix3 0 c 0) := by
  refine broadcastTo_apply g h (ix3 0 c p) (ix3 0 c 0) fun a => ?_
  match a with
  | ⟨0, _⟩ => rfl
  | ⟨1, _⟩ => rfl
  | ⟨2, _⟩ => rfl

/-- The scaled channel sums [1, 512] times the transposed first weights [512, 32]: entry (0, r). -/
theorem hiddenProduct_apply (A : FVec Ideal S1x512 .f32) (B : FVec Ideal S512x32 .f32) (z : Fin 1) (r : Fin 32) :
    matmul dot_S1x512_S512x32_S1x32_1_0_0_1_n_n none A B (constant S1x32 .f32 0x00000000#32) (ix2 z r)
      = ∑ c : Fin 512, A (ix2 z c) * B (ix2 c r) :=
  LibPlainDot.matmul_zero_apply dot_S1x512_S512x32_S1x32_1_0_0_1_n_n none rfl rfl
    (fun j k => (Nat.lt_one_iff.mp (dot_S1x512_S512x32_S1x32_1_0_0_1_n_n.lhsIdx j k (0 : Fin 2)).isLt).trans (Nat.lt_one_iff.mp (j (0 : Fin 2)).isLt).symm)
    (fun j k => DotDims.lhsIdx_val_of_single (d := dot_S1x512_S512x32_S1x32_1_0_0_1_n_n) (cl := 1) rfl j k)
    (fun j k => DotDims.rhsIdx_val_of_single (d := dot_S1x512_S512x32_S1x32_1_0_0_1_n_n) (cr := 0) rfl j k)
    (fun j k => by simp [DotDims.rhsIdx, dot_S1x512_S512x32_S1x32_1_0_0_1_n_n]; rfl)
    A B z r

/-- The hidden row [1, 32] times the transposed second weights [32, 512]: entry (0, c). -/
theorem gateProduct_apply (A : FVec Ideal S1x32 .f32) (B : FVec Ideal S32x512 .f32) (z : Fin 1) (c : Fin 512) :
    matmul dot_S1x32_S32x512_S1x512_1_0_0_1_n_n none A B (constant S1x512 .f32 0x00000000#32) (ix2 z c)
      = ∑ r : Fin 32, A (ix2 z r) * B (ix2 r c) :=
  LibPlainDot.matmul_zero_apply dot_S1x32_S32x512_S1x512_1_0_0_1_n_n none rfl rfl
    (fun j k => (Nat.lt_one_iff.mp (dot_S1x32_S32x512_S1x512_1_0_0_1_n_n.lhsIdx j k (0 : Fin 2)).isLt).trans (Nat.lt_one_iff.mp (j (0 : Fin 2)).isLt).symm)
    (fun j k => DotDims.lhsIdx_val_of_single (d := dot_S1x32_S32x512_S1x512_1_0_0_1_n_n) (cl := 1) rfl j k)
    (fun j k => DotDims.rhsIdx_val_of_single (d := dot_S1x32_S32x512_S1x512_1_0_0_1_n_n) (cr := 0) rfl j k)
    (fun j k => by simp [DotDims.rhsIdx, dot_S1x32_S32x512_S1x512_1_0_0_1_n_n]; rfl)
    A B z c

/-- What the body stores at (0, c, p): the block's entry times the logistic of entry c of the second product plus
    its bias, the hidden row being the rectified product of the channel sums scaled by κ with the first weights. -/
theorem pay_apply (x0 : Vec Ideal S1x512x3136 .f32) (x1 : Vec Ideal S512x32 .f32) (x2 : Vec Ideal S1x32 .f32)
    (x3 : Vec Ideal S32x512 .f32) (x4 : Vec Ideal S1x512 .f32) (c : Fin 512) (p : Fin 3136) :
    k0_pay1 (F := Ideal) x0 x1 x2 x3 x4 (ix3 0 c p)
      = x0 (ix3 0 c p) * Ideal.logistic ((∑ r : Fin 32,
          max ((∑ c' : Fin 512, ((∑ q : Fin 3136, x0 (ix3 0 c' q)) * SeSpec.kap) * x1 (ix2 c' r)) + x2 (ix2 0 r)) SeSpec.thr
            * x3 (ix2 r c)) + x4 (ix2 0 c)) := by
  unfold k0_pay1
  simp only [shapeCast_self]
  rw [mulf_apply, spread_apply, trailingUnit_apply]
  show x0 (ix3 0 c p) * Ideal.logistic (matmul (F := Ideal) dot_S1x32_S32x512_S1x512_1_0_0_1_n_n none _ x3 _ (ix2 0 c) + x4 (ix2 0 c)) = _
  rw [gateProduct_apply]
  refine congrArg (fun s => x0 (ix3 0 c p) * Ideal.logistic (s + x4 (ix2 0 c))) (Finset.sum_congr rfl fun r _ => ?_)
  refine congrArg (fun s => s * x3 (ix2 r c)) ?_
  show max (matmul (F := Ideal) dot_S1x512_S512x32_S1x32_1_0_0_1_n_n none _ x1 _ (ix2 0 r) + x2 (ix2 0 r)) SeSpec.thr = _
  rw [hiddenProduct_apply]
  refine congrArg (fun s => max (s + x2 (ix2 0 r)) SeSpec.thr) (Finset.sum_congr rfl fun c' _ => ?_)
  refine congrArg (fun s => s * x1 (ix2 c' r)) ?_
  show multiReduction (F := Ideal) .add [2] S1x512 x0 0x00000000#32 _ (.inl rfl) rfl (ix2 0 c') * SeSpec.kap = _
  rw [pixelSum_apply]

/-- The same for blocks known entry by entry: the image's pixels `xf`, the weights read transposed, the two biases as
    rows. The store at (0, c, p) is `xf c p` times the gate of channel c, the factors in this program's order. -/
theorem pay_of_entries (x0 : Vec Ideal S1x512x3136 .f32) (x1 : Vec Ideal S512x32 .f32) (x2 : Vec Ideal S1x32 .f32)
    (x3 : Vec Ideal S32x512 .f32) (x4 : Vec Ideal S1x512 .f32)
    (xf : Fin 512 → Fin 3136 → EReal) (w1 : Fin 32 → Fin 512 → EReal) (b1 : Fin 32 → EReal)
    (w2 : Fin 512 → Fin 32 → EReal) (b2 : Fin 512 → EReal)
    (h0 : ∀ c p, x0 (ix3 0 c p) = xf c p) (h1 : ∀ c r, x1 (ix2 c r) = w1 r c)
    (h2 : ∀ r, x2 (ix2 0 r) = b1 r) (h3 : ∀ r c, x3 (ix2 r c) = w2 c r) (h4 : ∀ c, x4 (ix2 0 c) = b2 c)
    (c : Fin 512) (p : Fin 3136) :
    k0_pay1 (F := Ideal) x0 x1 x2 x3 x4 (ix3 0 c p)
      = xf c p * Ideal.logistic ((∑ r : Fin 32,
          max ((∑ c' : Fin 512, ((∑ q : Fin 3136, xf c' q) * SeSpec.kap) * w1 r c') + b1 r) SeSpec.thr * w2 c r) + b2 c) := by
  rw [pay_apply]
  simp only [h0, h1, h2, h3, h4]

end Cert.ReferenceIdeal.Hand

end
-- ==== Proof.RefValue.lean ====
/-
  The idealized reference around its one region. The host reshapes the input to [32, 512, 3136] (image, channel,
  pixel), transposes both weight matrices, and views the two biases as rows. Grid point n takes image n of the
  input and the four small arrays whole, and writes image n of the output. Hence every entry of the output array
  is the input's entry times the gate of its image and channel, in this program's order of the factors, which is the
  specification's gate because multiplication of extended reals is commutative and associative. The host's
  reshape back to [32, 512, 56, 56] then gives the result of the specification.
-/
import proofs.«108815_g2000302494452861_pallasbulk_240_2_alg».proof.Proof.Gen.ReferenceIdeal.Frame
import proofs.«108815_g2000302494452861_pallasbulk_240_2_alg».proof.Proof.RefPayload
import Idealize.ShloMosaic.Lib.Pipeline.Value
import Idealize.ShloMosaic.Lib.StableHlo.Run
import Idealize.ShloMosaic.Lib.Tactic

set_option maxRecDepth 16384

noncomputable section

namespace Cert.ReferenceIdeal.Hand

open Idealize.ShloMosaic Idealize.ShloMosaic.TcCoe Idealize.ShloMosaic.ValueIdx Idealize.SL.Sem
open Idealize.ShloMosaic.Pipeline (Dat)
open Cert.ReferenceIdeal Cert.ReferenceIdeal.Gen
open scoped BigOperators

variable (m : (ℓ : Loc nD τ sig) → Buf (Elt Ideal) ℓ) (ρ : Dev nD → PrngReg)

/-! ## The argument arrays, and the arrays the region finds -/

abbrev argX (c : Dev nD) : SeSpec.SX.Idx → EReal := m ((c : Thread nD τ).loc main_arg0)
abbrev argW1 (c : Dev nD) : SeSpec.SW1.Idx → EReal := m ((c : Thread nD τ).loc main_arg1)
abbrev argB1 (c : Dev nD) : SeSpec.SB1.Idx → EReal := m ((c : Thread nD τ).loc main_arg2)
abbrev argW2 (c : Dev nD) : SeSpec.SW2.Idx → EReal := m ((c : Thread nD τ).loc main_arg3)
abbrev argB2 (c : Dev nD) : SeSpec.SB2.Idx → EReal := m ((c : Thread nD τ).loc main_arg4)

/-- The region's first operand is the input reshaped to [32, 512, 3136]. -/
theorem found_x (c : Dev nD) : (V m c main_v0 : S32x512x3136.Idx → EReal)
    = shapeCast S32x512x3136 (argX m c) shapeCasts_S32x512x56x56_S32x512x3136 := by
  show StableHlo.after hostOps0 (fun b => m (c, b)) (Proc.devRef .tc main_v0) = _
  after_results
  try rfl

/-- Its second operand is the first weights transposed. -/
theorem found_w1 (c : Dev nD) : (V m c main_v1 : S512x32.Idx → EReal)
    = transpose S512x32 [1, 0] (argW1 m c) transposes_S32x512_S512x32_1_0 := by
  show StableHlo.after hostOps0 (fun b => m (c, b)) (Proc.devRef .tc main_v1) = _
  after_results
  try rfl

/-- Its fourth operand is the second weights transposed. -/
theorem found_w2 (c : Dev nD) : (V m c main_v2 : S32x512.Idx → EReal)
    = transpose S32x512 [1, 0] (argW2 m c) transposes_S512x32_S32x512_1_0 := by
  show StableHlo.after hostOps0 (fun b => m (c, b)) (Proc.devRef .tc main_v2) = _
  after_results
  try rfl

/-- Its third operand is the first bias as a row. -/
theorem found_b1 (c : Dev nD) : (V m c main_v3 : S1x32.Idx → EReal)
    = shapeCast S1x32 (argB1 m c) shapeCasts_S32_S1x32 := by
  show StableHlo.after hostOps0 (fun b => m (c, b)) (Proc.devRef .tc main_v3) = _
  after_results
  try rfl

/-- Its fifth operand is the second bias as a row. -/
theorem found_b2 (c : Dev nD) : (V m c main_v4 : S1x512.Idx → EReal)
    = shapeCast S1x512 (argB2 m c) shapeCasts_S512_S1x512 := by
  show StableHlo.after hostOps0 (fun b => m (c, b)) (Proc.devRef .tc main_v4) = _
  after_results
  try rfl

/-! ## The blocks of a grid point -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 32 grid points: the input and the output move one image per point, the four
    small arrays stay where they are. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The image grid point t works on. -/
def img (t : Fin cfg0.N) : Fin 32 := t.cast N_0

theorem img_val (t : Fin cfg0.N) : (img t).val = t.val := rfl

/-- Entry (0, c, p) of the input block at point t is pixel p of channel c of image t. -/
theorem blk_x (c : Dev nD) (t : Fin cfg0.N) (cc : Fin 512) (p : Fin 3136) :
    (iblk m c 0 t : Vec Ideal S1x512x3136 .f32) (ix3 0 cc p) = SeSpec.xflat (argX m c) (img t) cc p := by
  obtain ⟨h0, h1, h2, -⟩ := idx_facts t
  unfold iblk
  rw [View.read_apply]
  show V m c main_v0 (((cfg0.win 0).blk t).view.emb (ix3 0 cc p)) = _
  refine (congrFun (found_x m c) _).trans ?_
  unfold SeSpec.xflat
  refine shapeCast_apply _ _ _ _ ?_
  rw [Shape.rowMajor_val_four, Shape.rowMajor_val_three]
  show (((img t).val * 512 + cc.val) * 56 + p.val / 56) * 56 + p.val % 56
    = ((win0_0.index t (0 : Fin 3) * 1 + 1 * 0) * 512 + (win0_0.index t (1 : Fin 3) * 512 + 1 * cc.val)) * 3136
        + (win0_0.index t (2 : Fin 3) * 3136 + 1 * p.val)
  rw [h0, h1, h2, img_val]
  omega

/-- Entry (c, r) of the transposed first weights is the weight (r, c), at every point. -/
theorem blk_w1 (c : Dev nD) (t : Fin cfg0.N) (cc : Fin 512) (r : Fin 32) :
    (iblk m c 1 t : Vec Ideal S512x32 .f32) (ix2 cc r) = argW1 m c (ix2 r cc) := by
  obtain ⟨-, -, -, h0, h1, -⟩ := idx_facts t
  unfold iblk
  rw [View.read_apply]
  show V m c main_v1 (((cfg0.win 1).blk t).view.emb (ix2 cc r)) = _
  refine (congrFun (found_w1 m c) _).trans ?_
  have e : ((cfg0.win 1).blk t).view.emb (ix2 cc r) = ix2 cc r := by
    funext a
    apply Fin.ext
    match a with
    | ⟨0, _⟩ => show win0_1.index t (0 : Fin 2) * 512 + 1 * cc.val = cc.val; rw [h0]; omega
    | ⟨1, _⟩ => show win0_1.index t (1 : Fin 2) * 32 + 1 * r.val = r.val; rw [h1]; omega
  rw [e]
  refine transpose_apply [1, 0] (argW1 m c) _ (ix2 cc r) (ix2 r cc) fun b => ?_
  match b with
  | ⟨0, _⟩ => rfl
  | ⟨1, _⟩ => rfl

/-- Entry (0, r) of the first bias row is the bias's entry r. -/
theorem blk_b1 (c : Dev nD) (t : Fin cfg0.N) (r : Fin 32) :
    (iblk m c 2 t : Vec Ideal S1x32 .f32) (ix2 0 r) = argB1 m c (ix1 r) := by
  obtain ⟨-, -, -, -, -, h0, h1, -⟩ := idx_facts t
  unfold iblk
  rw [View.read_apply]
  show V m c main_v3 (((cfg0.win 2).blk t).view.emb (ix2 0 r)) = _
  refine (congrFun (found_b1 m c) _).trans ?_
  refine shapeCast_apply _ _ _ _ ?_
  rw [Shape.rowMajor_val_one, Shape.rowMajor_val_two]
  show r.val = (win0_2.index t (0 : Fin 2) * 1 + 1 * 0) * 32 + (win0_2.index t (1 : Fin 2) * 32 + 1 * r.val)
  rw [h0, h1]
  omega

/-- Entry (r, c) of the transposed second weights is the weight (c, r), at every point. -/
theorem blk_w2 (c : Dev nD) (t : Fin cfg0.N) (r : Fin 32) (cc : Fin 512) :
    (iblk m c 3 t : Vec Ideal S32x512 .f32) (ix2 r cc) = argW2 m c (ix2 cc r) := by
  obtain ⟨-, -, -, -, -, -, -, h0, h1, -⟩ := idx_facts t
  unfold iblk
  rw [View.read_apply]
  show V m c main_v2 (((cfg0.win 3).blk t).view.emb (ix2 r cc)) = _
  refine (congrFun (found_w2 m c) _).trans ?_
  have e : ((cfg0.win 3).blk t).view.emb (ix2 r cc) = ix2 r cc := by
    funext a
    apply Fin.ext
    match a with
    | ⟨0, _⟩ => show win0_3.index t (0 : Fin 2) * 32 + 1 * r.val = r.val; rw [h0]; omega
    | ⟨1, _⟩ => show win0_3.index t (1 : Fin 2) * 512 + 1 * cc.val = cc.val; rw [h1]; omega
  rw [e]
  refine transpose_apply [1, 0] (argW2 m c) _ (ix2 r cc) (ix2 cc r) fun b => ?_
  match b with
  | ⟨0, _⟩ => rfl
  | ⟨1, _⟩ => rfl

/-- Entry (0, c) of the second bias row is the bias's entry c. -/
theorem blk_b2 (c : Dev nD) (t : Fin cfg0.N) (cc : Fin 512) :
    (iblk m c 4 t : Vec Ideal S1x512 .f32) (ix2 0 cc) = argB2 m c (ix1 cc) := by
  obtain ⟨-, -, -, -, -, -, -, -, -, h0, h1, -⟩ := idx_facts t
  unfold iblk
  rw [View.read_apply]
  show V m c main_v4 (((cfg0.win 4).blk t).view.emb (ix2 0 cc)) = _
  refine (congrFun (found_b2 m c) _).trans ?_
  refine shapeCast_apply _ _ _ _ ?_
  rw [Shape.rowMajor_val_one, Shape.rowMajor_val_two]
  show cc.val = (win0_4.index t (0 : Fin 2) * 1 + 1 * 0) * 512 + (win0_4.index t (1 : Fin 2) * 512 + 1 * cc.val)
  rw [h0, h1]
  omega

/-! ## What a point writes back, and the output array -/

/-- The output array: entry (n, c, p) holds pixel p of channel c of image n times that channel's gate. -/
def outArr (c : Dev nD) : S32x512x3136.Idx → EReal := fun i =>
  SeSpec.xflat (argX m c) (i 0) (i 1) (i 2)
    * SeSpec.gateOf (argX m c) (argW1 m c) (argB1 m c) (argW2 m c) (argB2 m c) (i 0) (i 1)

theorem outArr_at (c : Dev nD) (i : S32x512x3136.Idx) (n : Fin 32) (cc : Fin 512) (p : Fin 3136)
    (h0 : (i 0).val = n.val) (h1 : (i 1).val = cc.val) (h2 : (i 2).val = p.val) :
    outArr m c i = SeSpec.xflat (argX m c) n cc p
      * SeSpec.gateOf (argX m c) (argW1 m c) (argB1 m c) (argW2 m c) (argB2 m c) n cc := by
  unfold outArr
  rw [show (i 0 : Fin 32) = n from Fin.ext h0, show (i 1 : Fin 512) = cc from Fin.ext h1,
    show (i 2 : Fin 3136) = p from Fin.ext h2]

/-- WHAT POINT t WRITES BACK is its image of the output array. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold out0_5
  rw [View.canon_unit_zero hz3]
  simp only [View.ld_unit_zero (S := S1x512x3136) hz3, View.ld_unit_zero (S := S512x32) hz2, View.ld_unit_zero (S := S1x32) hz2,
    View.ld_unit_zero (S := S32x512) hz2, View.ld_unit_zero (S := S1x512) hz2]
  refine funext fun (y : S1x512x3136.Idx) => ?_
  obtain ⟨z, cc, p, rfl⟩ : ∃ (z : Fin 1) (cc : Fin 512) (p : Fin 3136), y = ix3 z cc p := ⟨y 0, y 1, y 2, eq_ix3 y⟩
  obtain rfl : z = 0 := Fin.fin_one_eq_zero z
  show k0_pay1 (F := Ideal) (iblk m c 0 t) (iblk m c 1 t) (iblk m c 2 t) (iblk m c 3 t) (iblk m c 4 t) (ix3 0 cc p)
      = outArr m c (((cfg0.win 5).blk t).view.emb (ix3 0 cc p))
  obtain ⟨-, -, -, -, -, -, -, -, -, -, -, h0, h1, h2⟩ := idx_facts t
  rw [outArr_at m c _ (img t) cc p
    (by show win0_5.index t (0 : Fin 3) * 1 + 1 * 0 = _; rw [h0, img_val]; omega)
    (by show win0_5.index t (1 : Fin 3) * 512 + 1 * cc.val = _; rw [h1]; omega)
    (by show win0_5.index t (2 : Fin 3) * 3136 + 1 * p.val = _; rw [h2]; omega)]
  refine (pay_of_entries _ _ _ _ _ (fun cc p => SeSpec.xflat (argX m c) (img t) cc p) (fun r c' => argW1 m c (ix2 r c'))
    (fun r => argB1 m c (ix1 r)) (fun cc r => argW2 m c (ix2 cc r)) (fun cc => argB2 m c (ix1 cc))
    (blk_x m c t) (blk_w1 m c t) (blk_b1 m c t) (blk_w2 m c t) (blk_b2 m c t) cc p).trans ?_
  unfold SeSpec.gateOf
  rw [← SeSpec.gateSwapped_eq]
  unfold SeSpec.gateSwapped SeSpec.hiddenSwapped SeSpec.pool
  rfl

/-- An index lies in point t's block iff each coordinate is in the block's range on its axis. -/
theorem mem_blk (t : Fin cfg0.N) (i : S32x512x3136.Idx) :
    i ∈ ((cfg0.win 5).blk t).view.set ↔ ∀ a : Fin 3, win0_5.index t a * S1x512x3136.size a ≤ (i a).val
      ∧ (i a).val < win0_5.index t a * S1x512x3136.size a + S1x512x3136.size a := by
  show i ∈ ((View.whole main_v5).slice (win0_5.rect t)).set ↔ _
  rw [View.set_slice_whole, Rect.mem_set_unit]
  exact Iff.rfl

/-- Every index of the output array is in some point's block: image n in the block of point n. -/
theorem covered (i : S32x512x3136.Idx) :
    ∃ t : Fin cfg0.N, (cfg0.win 5).flush t = true ∧ i ∈ ((cfg0.win 5).blk t).view.set := by
  have hi0 : (i 0).val < 32 := (i 0).isLt
  have hi1 : (i 1).val < 512 := (i 1).isLt
  have hi2 : (i 2).val < 3136 := (i 2).isLt
  obtain ⟨t, ht⟩ : ∃ t : Fin cfg0.N, t.val = (i 0).val := ⟨Fin.cast N_0.symm ⟨(i 0).val, hi0⟩, rfl⟩
  obtain ⟨-, -, -, -, -, -, -, -, -, -, -, h0, h1, h2⟩ := idx_facts t
  refine ⟨t, flush0_5 t, ?_⟩
  rw [mem_blk]
  intro a
  match a with
  | ⟨0, _⟩ =>
    show win0_5.index t (0 : Fin 3) * 1 ≤ (i 0).val ∧ (i 0).val < win0_5.index t (0 : Fin 3) * 1 + 1
    rw [h0, ht]; omega
  | ⟨1, _⟩ =>
    show win0_5.index t (1 : Fin 3) * 512 ≤ (i 1).val ∧ (i 1).val < win0_5.index t (1 : Fin 3) * 512 + 512
    rw [h1]; omega
  | ⟨2, _⟩ =>
    show win0_5.index t (2 : Fin 3) * 3136 ≤ (i 2).val ∧ (i 2).val < win0_5.index t (2 : Fin 3) * 3136 + 3136
    rw [h2]; omega

/-- So the output array ends holding `outArr`. -/
theorem final_arr (c : Dev nD) : (dats m 0 c).arrAt 5 cfg0.N = outArr m c :=
  (dats m 0 c).arrAt_eq_of_cover 5 (outArr m c) (fun t _ => flushed_eq m c t) covered

/-! ## The host's reshape after the region, and the run -/

/-- The program's result: the output array reshaped to [32, 512, 56, 56] is the specification's result. -/
theorem tail_eq (c : Dev nD) : Pipeline.afterTail₀ cfgs (dats m) 0 (V0 m) [hostOps1] c main_v6
    = SeSpec.result (argX m c) (argW1 m c) (argB1 m c) (argW2 m c) (argB2 m c) := by
  unfold Pipeline.afterTail₀
  show StableHlo.after hostOps1 _ (Proc.devRef .tc main_v6) = _
  after_results
  rw [Pipeline.withArrays_arr spec0 launch0.win.arr_inj c _ _ 5]
  rw [final_arr]
  funext i
  obtain ⟨n, cc, h, w, rfl⟩ : ∃ (n : Fin 32) (cc : Fin 512) (h w : Fin 56), i = ix4 n cc h w :=
    ⟨i 0, i 1, i 2, i 3, eq_ix4 i⟩
  have hn := n.isLt
  have hc := cc.isLt
  have hh := h.isLt
  have hw := w.isLt
  refine (shapeCast_apply (outArr m c) _ (ix4 n cc h w)
    (ix3 n cc (⟨56 * h.val + w.val, by omega⟩ : Fin 3136)) ?_).trans ?_
  · rw [Shape.rowMajor_val_three, Shape.rowMajor_val_four]
    show (n.val * 512 + cc.val) * 3136 + (56 * h.val + w.val) = ((n.val * 512 + cc.val) * 56 + h.val) * 56 + w.val
    omega
  · rw [outArr_at m c _ n cc ⟨56 * h.val + w.val, by omega⟩ rfl rfl rfl, SeSpec.xflat_rowMajor _ n cc h w _ rfl]
    rfl

/-- The run, read: the result at the specification's function of the arguments, the arguments unchanged. -/
theorem run : θ_run defs (onTc (τ := τ) (main (F := Ideal))) ⟨m, fun _ => 0, ρ⟩ fun r => ∀ c : Dev nD,
      r.2.mem ((c : Thread nD τ).loc main_v6) = SeSpec.result (argX m c) (argW1 m c) (argB1 m c) (argW2 m c) (argB2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.ReferenceIdeal.Hand

end
-- ==== Proof.lean ====
/-
  A squeeze-and-excitation layer over 32 images of 512 channels and 56 · 56 pixels: every entry of the input is
  scaled by the gate of its image and channel, gate = logistic (W2 · max (W1 · mean + b1) 0 + b2), the mean of a
  channel taken as its sum times the f32 word κ that both programs print for 1/3136.

  The kernel lays the input out as [16384, 3136], folds κ into the first weights on the host, and per image
  multiplies matrices by a column: h = (W1 · κ) · S, g = W2 · h. The reference lays the input out as [32, 512, 3136],
  scales the channel sums S · κ inside its body, and multiplies a row by the transposed matrices: h = (S · κ) · W1ᵀ,
  g = h · W2ᵀ. Entry by entry the two differ only in the order and grouping of products of extended reals, where
  multiplication is commutative and associative at every argument, so both end at one function of the arguments
  (`SeSpec.result`); the precondition's finiteness is not used, and κ and the zero word are never evaluated.

  Each program's value is read off its frame run: the body's one store at an entry (KernelPayload, RefPayload over
  LibPlainDot), the five loaded blocks as entries of the arguments through the host operations before the region,
  what a grid point writes back as a block of one whole-array function, the cover of the output by the 32 blocks,
  and the host's reshape after the region (KernelValue, RefValue). The idealized kernel is the kernel's own text
  read over the extended reals, no operation replaced, so `preserves` has nothing to state.
-/
import proofs.«108815_g2000302494452861_pallasbulk_240_2_alg».proof.Defs
import proofs.«108815_g2000302494452861_pallasbulk_240_2_alg».proof.Proof.Gen.Kernel
import proofs.«108815_g2000302494452861_pallasbulk_240_2_alg».proof.Proof.Gen.Kernel.Skeleton
import proofs.«108815_g2000302494452861_pallasbulk_240_2_alg».proof.Proof.Gen.Kernel.Launch
import proofs.«108815_g2000302494452861_pallasbulk_240_2_alg».proof.Proof.Gen.Kernel.Points
import proofs.«108815_g2000302494452861_pallasbulk_240_2_alg».proof.Proof.Gen.Kernel.Frame
import proofs.«108815_g2000302494452861_pallasbulk_240_2_alg».proof.Proof.Gen.KernelIdeal
import proofs.«108815_g2000302494452861_pallasbulk_240_2_alg».proof.Proof.Gen.KernelIdeal.Skeleton
import proofs.«108815_g2000302494452861_pallasbulk_240_2_alg».proof.Proof.Gen.KernelIdeal.Launch
import proofs.«108815_g2000302494452861_pallasbulk_240_2_alg».proof.Proof.Gen.KernelIdeal.Points
import proofs.«108815_g2000302494452861_pallasbulk_240_2_alg».proof.Proof.Gen.KernelIdeal.Frame
import proofs.«108815_g2000302494452861_pallasbulk_240_2_alg».proof.Proof.Gen.ReferenceIdeal
import proofs.«108815_g2000302494452861_pallasbulk_240_2_alg».proof.Proof.Gen.ReferenceIdeal.Skeleton
import proofs.«108815_g2000302494452861_pallasbulk_240_2_alg».proof.Proof.Gen.ReferenceIdeal.Launch
import proofs.«108815_g2000302494452861_pallasbulk_240_2_alg».proof.Proof.Gen.ReferenceIdeal.Points
import proofs.«108815_g2000302494452861_pallasbulk_240_2_alg».proof.Proof.Gen.ReferenceIdeal.Frame
import proofs.«108815_g2000302494452861_pallasbulk_240_2_alg».proof.Proof.Gen.Pre_finite_inputs
import proofs.«108815_g2000302494452861_pallasbulk_240_2_alg».proof.Proof.KernelValue
import proofs.«108815_g2000302494452861_pallasbulk_240_2_alg».proof.Proof.RefValue
import Idealize.ShloMosaic.Adequacy
import Idealize.ShloMosaic.Init

noncomputable section

namespace Cert.Proof

open Idealize.ShloMosaic Idealize.SL.Sem

/-- Both idealized programs end with the result array at `SeSpec.result` of their arguments, and the arguments
    agree. -/
theorem algebraic : Cert.algebraic_KernelIdeal_ReferenceIdeal := by
  intro m ρ m' ρ' _ hagree
  refine ⟨fun c => SeSpec.result (Cert.KernelIdeal.Hand.argX m c) (Cert.KernelIdeal.Hand.argW1 m c)
    (Cert.KernelIdeal.Hand.argB1 m c) (Cert.KernelIdeal.Hand.argW2 m c) (Cert.KernelIdeal.Hand.argB2 m c),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  exact congr (congr (congr (congr (congrArg SeSpec.result (hagree c).1) (hagree c).2.1) (hagree c).2.2.1)
    (hagree c).2.2.2.1) (hagree c).2.2.2.2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
